-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S1048576x2 : Shape := ⟨2, ![1048576, 2]⟩
abbrev S1048576 : Shape := ⟨1, ![1048576]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S1048576x2 : S_.BroadcastsInDim S1048576x2 (![] : Fin 0 → Fin S1048576x2.rank)
  reducesTo_S1048576x2_S_d0_1 : S1048576x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x8192 .f32) (main_arg1 : IVec S1048576x2 32) (main_arg2 : FVec F S1048576 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_c_2 : IVec S_ 32 := constantI S_ 32 0#32
  let main_v9 : IVec S1048576x2 32 := broadcastInDim S1048576x2 ![] bcast_S_S1048576x2 main_c_2
  let main_v10 : IVec S1048576x2 1 := cmpi .sge main_arg1 main_v9
  let main_c_3 : IVec S_ 1 := constantI S_ 1 1#1
  let main_v11 : IVec S_ 1 := (fun x v => Host.reduce IntOp.andi x v reducesTo_S1048576x2_S_d0_1 h_S_) main_v10 main_c_3
  let main_v12 : IVec S_ 1 := andi main_v8 main_v11
  let main_c_4 : IVec S_ 32 := constantI S_ 32 8192#32
  let main_v13 : IVec S1048576x2 32 := broadcastInDim S1048576x2 ![] bcast_S_S1048576x2 main_c_4
  let main_v14 : IVec S1048576x2 1 := cmpi .slt main_arg1 main_v13
  let main_c_5 : IVec S_ 1 := constantI S_ 1 1#1
  let main_v15 : IVec S_ 1 := (fun x v => Host.reduce IntOp.andi x v reducesTo_S1048576x2_S_d0_1 h_S_) main_v14 main_c_5
  fn_part1 (F := F) main_v12 main_v15
-- ==== Kernel.lean ====
abbrev S256x8192 : Shape := ⟨2, ![256, 8192]⟩
abbrev S1048576x2 : Shape := ⟨2, ![1048576, 2]⟩
abbrev S1048576 : Shape := ⟨1, ![1048576]⟩
abbrev S1048576x1 : Shape := ⟨2, ![1048576, 1]⟩
abbrev S_ : Shape := ⟨0, ![]⟩
abbrev S8192x8192 : Shape := ⟨2, ![8192, 8192]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 28
  | .vmem => 7
  | .smem => 0
  | _ => 0

abbrev bufTy : (tb : Table) → Fin (tcTables nBuf tb) → BufTy
  | .hbm, ⟨0, _⟩ => ⟨S256x8192, .f32⟩
  | .hbm, ⟨1, _⟩ => ⟨S1048576x2, .i32⟩
  | .hbm, ⟨2, _⟩ => ⟨S1048576, .f32⟩
  | .hbm, ⟨3, _⟩ => ⟨S1048576x1, .i32⟩
  | .hbm, ⟨4, _⟩ => ⟨S1048576, .i32⟩
  | .hbm, ⟨5, _⟩ => ⟨S1048576x1, .i32⟩
  | .hbm, ⟨6, _⟩ => ⟨S1048576, .i32⟩
  | .hbm, ⟨7, _⟩ => ⟨S_, .f32⟩
  | .hbm, ⟨8, _⟩ => ⟨S8192x8192, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S_, .i32⟩
  | .hbm, ⟨17, _⟩ => ⟨S1048576, .i32⟩
  | .hbm, ⟨18, _⟩ => ⟨S1048576, .i1⟩
  | .hbm, ⟨19, _⟩ => ⟨S_, .i32⟩
  | .hbm, ⟨20, _⟩ => ⟨S1048576, .i32⟩
  | .hbm, ⟨21, _⟩ => ⟨S1048576, .i32⟩
  | .hbm, ⟨22, _⟩ => ⟨S1048576, .i32⟩
  | .hbm, ⟨23, _⟩ => ⟨S1048576x1, .i32⟩
  | .hbm, ⟨24, _⟩ => ⟨S1048576x1, .i32⟩
  | .hbm, ⟨25, _⟩ => ⟨S1048576x2, .i32⟩
  | .hbm, ⟨26, _⟩ => ⟨S8192x8192, .f32⟩
  | .hbm, ⟨27, _⟩ => ⟨S256x8192, .f32⟩
  | .local _ .vmem, ⟨0, _⟩ => ⟨S256x2048, .f32⟩
  | .local _ .vmem, ⟨1, _⟩ => ⟨S256x2048, .f32⟩
  | .local _ .vmem, ⟨2, _⟩ => ⟨S2048x1024, .f32⟩
  | .local _ .vmem, ⟨3, _⟩ => ⟨S2048x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  bcast_S_S8192x8192 : S_.BroadcastsInDim S8192x8192 (![] : Fin 0 → Fin S8192x8192.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  scatter_S8192x8192_S1048576x2_S1048576_n_01_01_1_wf : ScatterDims.WF S8192x8192 S1048576x2 S1048576 [] [0, 1] [0, 1] 1
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x8192.size a
  hwx0_0 : ∀ i : grid0.Coords, EltTy.bits .f32 = 32 ∨ (Rect.block (s := S256x8192) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x8192.size a
  hwx0_2 : ∀ i : grid0.Coords, EltTy.bits .f32 = 32 ∨ (Rect.block (s := S256x8192) S256x1024.size (cc0_transform_2 i) (hinb0_2 i)).WholeWords (EltTy.packing .f32)

variable [Facts₀]

def scatter_S8192x8192_S1048576x2_S1048576_n_01_01_1 : ScatterDims S8192x8192 S1048576x2 S1048576 where
  updateWindowDims := []
  insertedWindowDims := [0, 1]
  scatterDimsToOperandDims := [0, 1]
  indexVectorDim := 1
  wf := scatter_S8192x8192_S1048576x2_S1048576_n_01_01_1_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x8192 : Shape := ⟨2, ![256, 8192]⟩
abbrev S1048576x2 : Shape := ⟨2, ![1048576, 2]⟩
abbrev S1048576 : Shape := ⟨1, ![1048576]⟩
abbrev S1048576x1 : Shape := ⟨2, ![1048576, 1]⟩
abbrev S8192x256 : Shape := ⟨2, ![8192, 256]⟩
abbrev S_ : Shape := ⟨0, ![]⟩
abbrev S1048576x256 : Shape := ⟨2, ![1048576, 256]⟩

abbrev nBuf : Space → Nat
  | .hbm => 25
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S1048576x2, .i32⟩
  | .hbm, ⟨2, _⟩ => ⟨S1048576, .f32⟩
  | .hbm, ⟨3, _⟩ => ⟨S1048576x1, .i32⟩
  | .hbm, ⟨4, _⟩ => ⟨S1048576, .i32⟩
  | .hbm, ⟨5, _⟩ => ⟨S1048576x1, .i32⟩
  | .hbm, ⟨6, _⟩ => ⟨S1048576, .i32⟩
  | .hbm, ⟨7, _⟩ => ⟨S8192x256, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x256, .f32⟩
  | .hbm, ⟨17, _⟩ => ⟨S1048576x1, .f32⟩
  | .hbm, ⟨18, _⟩ => ⟨S1048576x256, .f32⟩
  | .hbm, ⟨19, _⟩ => ⟨S1048576x256, .f32⟩
  | .hbm, ⟨20, _⟩ => ⟨S_, .f32⟩
  | .hbm, ⟨21, _⟩ => ⟨S8192x256, .f32⟩
  | .hbm, ⟨22, _⟩ => ⟨S1048576x1, .i32⟩
  | .hbm, ⟨23, _⟩ => ⟨S8192x256, .f32⟩
  | .hbm, ⟨24, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  transposes_S256x8192_S8192x256_1_0 : S256x8192.Transposes [1, 0] S8192x256
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x256_0_1 : S1048576x1.BroadcastsInDim S1048576x256 (![0, 1] : Fin 2 → Fin S1048576x256.rank)
  bcast_S_S8192x256 : S_.BroadcastsInDim S8192x256 (![] : Fin 0 → Fin S8192x256.rank)
  transposes_S8192x256_S256x8192_1_0 : S8192x256.Transposes [1, 0] S256x8192
  gather_S8192x256_S1048576x1_S1048576x256_1_0_n_n_0_1_1256_wf : GatherDims.WF S8192x256 S1048576x1 S1048576x256 [1] [0] [] [0] [] 1 ![1, 256]
  scatter_S8192x256_S1048576x1_S1048576x256_1_0_0_1_wf : ScatterDims.WF S8192x256 S1048576x1 S1048576x256 [1] [0] [0] 1

variable [Facts₀]

def gather_S8192x256_S1048576x1_S1048576x256_1_0_n_n_0_1_1256 : GatherDims S8192x256 S1048576x1 S1048576x256 where
  offsetDims := [1]
  collapsedSliceDims := [0]
  operandBatchingDims := []
  startIndicesBatchingDims := []
  startIndexMap := [0]
  indexVectorDim := 1
  sliceSizes := ![1, 256]
  wf := gather_S8192x256_S1048576x1_S1048576x256_1_0_n_n_0_1_1256_wf
def scatter_S8192x256_S1048576x1_S1048576x256_1_0_0_1 : ScatterDims S8192x256 S1048576x1 S1048576x256 where
  updateWindowDims := [1]
  insertedWindowDims := [0]
  scatterDimsToOperandDims := [0]
  indexVectorDim := 1
  wf := scatter_S8192x256_S1048576x1_S1048576x256_1_0_0_1_wf

class Facts : Prop extends Facts₀ where

variable [Facts]
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.Spec.lean ====
/-
  A sparse matrix given by coordinate entries, times a dense matrix.

  The sparse matrix `A` is 8192 × 8192 and is given by 1048576 entries: entry `k` has a row number and a column
  number (the two columns of `idx`, read as signed integers) and a value `w k`; entries that share a position add up,
  so `A i j` is the sum of `w k` over the entries `k` at `(i, j)` (`denseAt`).  For `x` of 256 rows and 8192 columns
  the product `x · A` at `(b, j)` is `∑ i, x b i · A i j` (`prodAt`).

  The same product, entry by entry: every entry `k` in column `j` contributes `x b (row k) · w k` to position
  `(b, j)` (`segAt`).  The two agree when every row and column number is in range and `x` and `w` hold real
  numbers: a factor `x b i` moves inside the sum of the `w k` it multiplies (this is where finiteness is needed:
  on the extended reals a product does not distribute over a sum of infinities of both signs), and the entries of
  column `j`, grouped by their row, are all the entries of column `j`.
-/
import Idealize.ShloMosaic.PureOps.Ideal
import Idealize.ShloMosaic.Lib.ValueIdx
import proofs.«424148_j87522843561392_1_alg».proof.Proof.LibRowOps

noncomputable section

open scoped BigOperators

namespace Spmm

open Idealize.ShloMosaic Idealize.ShloMosaic.ValueIdx

/-- Entry `k`'s row number, read signed. -/
def rowOf (idx : IVec ⟨2, ![1048576, 2]⟩ 32) (k : Fin 1048576) : Int := (idx (ix2 k (0 : Fin 2))).toInt

/-- Entry `k`'s column number, read signed. -/
def colOf (idx : IVec ⟨2, ![1048576, 2]⟩ 32) (k : Fin 1048576) : Int := (idx (ix2 k (1 : Fin 2))).toInt

/-- Every row number and every column number lies in `[0, 8192)`. -/
def InRange (idx : IVec ⟨2, ![1048576, 2]⟩ 32) : Prop :=
  ∀ (k : Fin 1048576) (a : Fin 2), 0 ≤ (idx (ix2 k a)).toInt ∧ (idx (ix2 k a)).toInt < 8192

/-- Every element is a real number (neither infinity). -/
def Finite {ι : Type} (v : ι → EReal) : Prop := ∀ i, ∃ r : ℝ, v i = (r : EReal)

/-- `A i j`: the sum of the values of the entries at position `(i, j)`. -/
def denseAt (idx : IVec ⟨2, ![1048576, 2]⟩ 32) (w : (⟨1, ![1048576]⟩ : Shape).Idx → EReal) (i j : Fin 8192) : EReal :=
  ∑ k ∈ Finset.univ.filter (fun k : Fin 1048576 => rowOf idx k = (i.val : Int) ∧ colOf idx k = (j.val : Int)), w (ix1 k)

/-- `(x · d) b j`: the sum over the 8192 rows `i` of `d` of `x b i · d i j`. -/
def prodAt (x : (⟨2, ![256, 8192]⟩ : Shape).Idx → EReal) (d : (⟨2, ![8192, 8192]⟩ : Shape).Idx → EReal)
    (b : Fin 256) (j : Fin 8192) : EReal :=
  ∑ i : Fin 8192, x (ix2 b i) * d (ix2 i j)

/-- The product entry by entry: the sum over the entries `k` of column `j` of `x b (row k) · w k`, the row number
    clamped into `[0, 8191]` (in range it is the row number itself). -/
def segAt (x : (⟨2, ![256, 8192]⟩ : Shape).Idx → EReal) (idx : IVec ⟨2, ![1048576, 2]⟩ 32)
    (w : (⟨1, ![1048576]⟩ : Shape).Idx → EReal) (b : Fin 256) (j : Fin 8192) : EReal :=
  ∑ k ∈ Finset.univ.filter (fun k : Fin 1048576 => colOf idx k = (j.val : Int)),
    x (ix2 b (RowOps.clampRow 8192 (by decide) (idx (ix2 k (0 : Fin 2))))) * w (ix1 k)

/-- A finite sum of real numbers, read in the extended reals, is the sum of the numbers read there. -/
private theorem coe_real_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- In range, the clamped row of entry `k` is its row number. -/
private theorem clampRow_val (idx : IVec ⟨2, ![1048576, 2]⟩ 32) (hr : InRange idx) (k : Fin 1048576) :
    ((RowOps.clampRow 8192 (by decide) (idx (ix2 k (0 : Fin 2)))).val : Int) = rowOf idx k := by
  have h := hr k 0
  unfold rowOf
  show ((min (idx (ix2 k (0 : Fin 2))).toInt.toNat (8192 - 1) : Nat) : Int) = _
  omega

/-- In range, entry `k` has row number `i` exactly when its clamped row is `i`. -/
private theorem rowOf_eq_iff (idx : IVec ⟨2, ![1048576, 2]⟩ 32) (hr : InRange idx) (k : Fin 1048576) (i : Fin 8192) :
    rowOf idx k = (i.val : Int) ↔ RowOps.clampRow 8192 (by decide) (idx (ix2 k (0 : Fin 2))) = i := by
  have h := clampRow_val idx hr k
  constructor
  · intro h1
    apply Fin.ext
    omega
  · intro h1
    rw [← h1]
    exact h.symm

/-- The law over the real numbers: a factor moves inside the sum of the values it multiplies, and the entries of
    column `j` grouped by their row are all the entries of column `j` (an entry sits in exactly one row, its own). -/
private theorem law_real (xr : (⟨2, ![256, 8192]⟩ : Shape).Idx → ℝ) (idx : IVec ⟨2, ![1048576, 2]⟩ 32)
    (wr : (⟨1, ![1048576]⟩ : Shape).Idx → ℝ) (hr : InRange idx) (b : Fin 256) (j : Fin 8192) :
    (∑ i : Fin 8192, xr (ix2 b i) *
        ∑ k ∈ Finset.univ.filter (fun k : Fin 1048576 => rowOf idx k = (i.val : Int) ∧ colOf idx k = (j.val : Int)), wr (ix1 k))
      = ∑ k ∈ Finset.univ.filter (fun k : Fin 1048576 => colOf idx k = (j.val : Int)),
          xr (ix2 b (RowOps.clampRow 8192 (by decide) (idx (ix2 k (0 : Fin 2))))) * wr (ix1 k) := by
  simp only [Finset.mul_sum, Finset.sum_filter]
  rw [Finset.sum_comm]
  refine Finset.sum_congr rfl fun k _ => ?_
  by_cases hc : colOf idx k = (j.val : Int)
  · rw [if_pos hc, Finset.sum_eq_single (RowOps.clampRow 8192 (by decide) (idx (ix2 k (0 : Fin 2))))]
    · rw [if_pos ⟨(rowOf_eq_iff idx hr k _).mpr rfl, hc⟩]
    · intro i _ hi
      rw [if_neg (fun h => hi ((rowOf_eq_iff idx hr k i).mp h.1).symm), mul_zero]
    · intro h
      exact absurd (Finset.mem_univ _) h
  · rw [if_neg hc]
    refine Finset.sum_eq_zero fun i _ => ?_
    rw [if_neg (fun h => hc h.2), mul_zero]

/-- `x · A` is the entry-by-entry sum, for real `x` and `w` and numbers in range. -/
theorem law (x : (⟨2, ![256, 8192]⟩ : Shape).Idx → EReal) (idx : IVec ⟨2, ![1048576, 2]⟩ 32)
    (w : (⟨1, ![1048576]⟩ : Shape).Idx → EReal) (hx : Finite x) (hw : Finite w) (hr : InRange idx)
    (d : (⟨2, ![8192, 8192]⟩ : Shape).Idx → EReal) (hd : ∀ i j : Fin 8192, d (ix2 i j) = denseAt idx w i j)
    (b : Fin 256) (j : Fin 8192) :
    prodAt x d b j = segAt x idx w b j := by
  choose xr hxr using hx
  choose wr hwr using hw
  unfold prodAt segAt
  simp only [hd, denseAt, hxr, hwr, ← coe_real_sum, ← EReal.coe_mul]
  rw [law_real xr idx wr hr b j]

end Spmm

end
-- ==== Proof.PreFacts.lean ====
/-
  What the precondition says of the inputs: every element of `inputs` and of `w` is a real number (its absolute
  value is below +∞), and every row and column number of `indices` lies in `[0, 8192)` (signed compares against
  0 and 8192, each reduced by `and` over the whole array).
-/
import proofs.«424148_j87522843561392_1_alg».proof.Pre_finite_inputs
import proofs.«424148_j87522843561392_1_alg».proof.Proof.Gen.Pre_finite_inputs
import proofs.«424148_j87522843561392_1_alg».proof.Proof.Spec
import Idealize.ShloMosaic.Lib.ReduceAll
import Idealize.ShloMosaic.Lib.StableHlo.Predicate

noncomputable section

open scoped BigOperators

namespace Cert.PreFacts

open Idealize.ShloMosaic Idealize.ShloMosaic.ValueIdx Cert.Pre_finite_inputs

/-- An extended real whose absolute value `max v (-v)` is strictly below +∞ is a real number: the pattern
    `0x7F800000` denotes +∞, and of the three kinds of extended real only a real has `max v (-v) < ⊤`
    (at `⊤` the maximum is `⊤`; at `⊥` the negation is `⊤`). -/
private theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) :
    ∃ r : ℝ, v = (r : EReal) := by
  have htop : Ideal.ofBits .f32 0x7F800000#32 = ⊤ := by simp [Ideal.ofBits, Ideal.ieee]
  change Ideal.cmp .olt (max v (-v)) (Ideal.ofBits .f32 0x7F800000#32) = 1#1 at h
  rw [htop] at h
  simp only [Ideal.cmp, StableHlo.Predicate.ofBool_eq_one_iff, decide_eq_true_eq] at h
  induction v using EReal.rec with
  | bot => simp at h
  | coe r => exact ⟨r, rfl⟩
  | top => simp at h

/-- A word that compares signed-greater-or-equal to the zero word has a non-negative signed value. -/
private theorem nonneg_of_sge (a : BitVec 32) (h : IntOp.cmpi .sge a 0#32 = 1#1) : 0 ≤ a.toInt := by
  unfold IntOp.cmpi at h
  rw [StableHlo.Predicate.ofBool_eq_one_iff] at h
  simpa [BitVec.sle] using h

/-- A word that compares signed-less to the word 8192 has a signed value below 8192. -/
private theorem lt_of_slt (a : BitVec 32) (h : IntOp.cmpi .slt a 8192#32 = 1#1) : a.toInt < 8192 := by
  unfold IntOp.cmpi at h
  rw [StableHlo.Predicate.ofBool_eq_one_iff] at h
  have e : (8192#32 : BitVec 32).toInt = 8192 := by decide
  simpa [BitVec.slt, e] using h

/-- The precondition, all ones, gives real `inputs` and `w` and row and column numbers in range. -/
theorem of_pre (x : FVec Ideal S256x8192 .f32) (idx : IVec S1048576x2 32) (w : FVec Ideal S1048576 .f32)
    (h : Cert.Pre_finite_inputs.fn (F := Ideal) x idx w = (fun _ => 1#1)) :
    Spmm.Finite x ∧ Spmm.Finite w ∧ Spmm.InRange idx := by
  -- the rank-0 result has a single index
  haveI : Subsingleton S_.Idx := ⟨fun a b => funext fun d => d.elim0⟩
  -- the predicate at its one index is a conjunction of four `and`-reductions, each therefore 1
  have h0 := congrFun h ValueIdx.ix0
  dsimp only [Cert.Pre_finite_inputs.fn, Cert.Pre_finite_inputs.fn_part1] at h0
  simp only [andi, IntOp.andi_eq_one] at h0
  obtain ⟨⟨⟨hx, hw⟩, hge⟩, hlt⟩ := h0
  -- an `and`-reduction over every axis that is 1 had a 1 at every element; read each compare at one element
  refine ⟨fun i => ?_, fun i => ?_, fun k a => ⟨?_, ?_⟩⟩
  · exact real_of_abs_lt_inf (x i) (Host.reduce_andi_all _ _ _ _ _ hx i)
  · exact real_of_abs_lt_inf (w i) (Host.reduce_andi_all _ _ _ _ _ hw i)
  · exact nonneg_of_sge _ (Host.reduce_andi_all _ _ _ _ _ hge (ix2 k a))
  · exact lt_of_slt _ (Host.reduce_andi_all _ _ _ _ _ hlt (ix2 k a))

end Cert.PreFacts

end
-- ==== Proof.RefValue.lean ====
/-
  The reference at an index.  It gathers, for every entry `k`, row `row k` of the transposed `inputs` (a negative
  row number first shifted by 8192, then clamped: in range neither changes it), scales it by `w k`, and adds the
  scaled rows into the rows of a zero matrix by column number (an entry whose column number is out of range is
  dropped); the result transposed back is, at `(b, j)`, the sum over the entries `k` of column `j` of
  `inputs b (row k) · w k`.
-/
import proofs.«424148_j87522843561392_1_alg».proof.Proof.Gen.ReferenceIdeal.Read
import proofs.«424148_j87522843561392_1_alg».proof.Proof.Spec
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The gather's start index of entry `e`: a negative row number would be shifted by 8192, but in range the row number
    is nonnegative, the comparison with zero fails, and the select returns the row number itself. -/
private theorem rowStart (idx : IVec S1048576x2 32) (hr : Spmm.InRange idx) (e : Fin 1048576) :
    Cert.ReferenceIdeal.Read.val_main_v10 (F := Ideal) idx (ix2 e (0 : Fin 1)) = idx (ix2 e (0 : Fin 2)) := by
  rw [Read.val_main_v10_apply, Read.val_main_v9_apply, Read.val_main_v6_apply, Read.val_main_v5_apply,
    Read.val_main_c_apply, Read.val_main_v1_apply, Read.val_main_v0_apply]
  have h1 : Read.idx_main_v0 (Read.idx_main_v1 (Read.idx_main_v10 (ix2 e (0 : Fin 1)))) = ix2 e (0 : Fin 2) := by
    funext a
    match a with
    | ⟨0, _⟩ => exact Fin.ext (Nat.div_one _)
    | ⟨1, _⟩ => rfl
  rw [h1]
  have h0 : 0 ≤ (idx (ix2 e (0 : Fin 2))).toInt := (hr e 0).1
  have hc : IntOp.cmpi .slt (idx (ix2 e (0 : Fin 2))) 0#32 = 0#1 := by
    unfold IntOp.cmpi
    have hs : (idx (ix2 e (0 : Fin 2))).slt 0#32 = false := by
      rw [BitVec.slt, decide_eq_false_iff_not]
      show ¬ (idx (ix2 e (0 : Fin 2))).toInt < (0#32).toInt
      have : (0#32 : BitVec 32).toInt = 0 := by decide
      omega
    show BitVec.ofBool ((idx (ix2 e (0 : Fin 2))).slt 0#32) = 0#1
    rw [hs]
    rfl
  rw [hc, select_zero]

/-- The scatter's index of entry `e` is its column number. -/
private theorem colStart (idx : IVec S1048576x2 32) (e : Fin 1048576) :
    Cert.ReferenceIdeal.Read.val_main_v16 (F := Ideal) idx (ix2 e (0 : Fin 1)) = idx (ix2 e (1 : Fin 2)) := by
  rw [Read.val_main_v16_apply, Read.val_main_v3_apply, Read.val_main_v2_apply]
  congr 1
  funext a
  match a with
  | ⟨0, _⟩ => exact Fin.ext (Nat.div_one _)
  | ⟨1, _⟩ => rfl

/-- The update row of entry `e` at column `b`: row `row e` of the transposed input at `b`, times `w e`. -/
private theorem upd_apply (x : FVec Ideal S256x8192 .f32) (idx : IVec S1048576x2 32) (w : FVec Ideal S1048576 .f32)
    (hr : Spmm.InRange idx) (e : Fin 1048576) (b : Fin 256) :
    Cert.ReferenceIdeal.Read.val_main_v14 (F := Ideal) x idx w (ix2 e b)
      = x (ix2 b (RowOps.clampRow 8192 (by decide) (idx (ix2 e (0 : Fin 2))))) * w (ix1 e) := by
  rw [Read.val_main_v14_apply, Ideal.mulf_def, Read.val_main_v13_apply, Read.val_main_v12_apply]
  have hw : Read.idx_main_v12 (Read.idx_main_v13 (ix2 e b)) = ix1 e := by
    funext a
    match a with
    | ⟨0, _⟩ => rfl
  rw [hw]
  congr 1
  unfold Read.val_main_v11
  have hg : gather_S8192x256_S1048576x1_S1048576x256_1_0_n_n_0_1_1256
      = RowOps.gatherDims 8192 1048576 256 Facts₀.gather_S8192x256_S1048576x1_S1048576x256_1_0_n_n_0_1_1256_wf := rfl
  rw [hg, RowOps.gather_apply (by decide), rowStart idx hr e, Read.val_main_v4_apply]
  congr 1
  funext a
  match a with
  | ⟨0, _⟩ => rfl
  | ⟨1, _⟩ => rfl

/-- The reference's result at `(b, j)`, for row and column numbers in range. -/
theorem ref_apply (x : FVec Ideal S256x8192 .f32) (idx : IVec S1048576x2 32) (w : FVec Ideal S1048576 .f32)
    (hr : Spmm.InRange idx) (b : Fin 256) (j : Fin 8192) :
    Cert.ReferenceIdeal.Read.val_main_v18 (F := Ideal) x idx w (ix2 b j) = Spmm.segAt x idx w b j := by
  rw [Read.val_main_v18_apply]
  have hi : Read.idx_main_v18 (ix2 b j) = ix2 j b := by
    funext a
    match a with
    | ⟨0, _⟩ => rfl
    | ⟨1, _⟩ => rfl
  rw [hi]
  unfold Read.val_main_v17
  have hs : scatter_S8192x256_S1048576x1_S1048576x256_1_0_0_1
      = RowOps.scatterDims 8192 1048576 256 Facts₀.scatter_S8192x256_S1048576x1_S1048576x256_1_0_0_1_wf := rfl
  rw [hs, RowOps.scatterAdd_apply, Read.val_main_v15_apply, Read.val_main_cst_apply]
  have hz : (FloatOps.ofBits (F := Ideal) .f32 0x00000000#32) = 0 := Ideal.ofBits_zero_f32
  rw [hz, zero_add]
  unfold Spmm.segAt
  refine Finset.sum_congr (Finset.filter_congr fun e _ => ?_) fun e _ => ?_
  · rw [colStart idx e]
    rfl
  · exact upd_apply x idx w hr e b

end Cert.ReferenceIdeal.RefValue

end
-- ==== Proof.Dense.lean ====
/-
  The dense matrix the kernel multiplies by.  Before the kernel runs, the entries are added into a zero
  8192 × 8192 matrix at their (row, column) positions (a negative number first shifted by 8192: in range it is
  unchanged; an entry with either number out of range is dropped): position `(i, j)` holds the sum of `w k` over
  the entries `k` at `(i, j)`.
-/
import proofs.«424148_j87522843561392_1_alg».proof.Proof.Gen.KernelIdeal.Frame
import proofs.«424148_j87522843561392_1_alg».proof.Proof.Spec
import Idealize.ShloMosaic.Lib.StableHlo.Run
import Idealize.ShloMosaic.Lib.Pipeline.Value
import Idealize.ShloMosaic.PureOps.Ideal.Laws

noncomputable section

open scoped BigOperators

namespace Cert.KernelIdeal.DenseValue

open Cert.KernelIdeal Cert.KernelIdeal.Gen Idealize.ShloMosaic Idealize.ShloMosaic.TcCoe Idealize.SL.Sem
open Idealize.ShloMosaic.ValueIdx

/-! ## Scattering scalars at (row, column) pairs

An operand `[N, M]`, an array `[E, 2]` holding a row number and a column number per update, and `E` scalar updates:
update `k` is added at the position its two numbers name, read signed, and is dropped when either is out of range. -/

section PairScatter

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers: no window axis on the updates, both operand axes inserted, index word 0 the row and
    index word 1 the column, the index words along axis 1 of the index array. -/
private abbrev pairDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)
  (idx : IVec ⟨2, ![E, 2]⟩ w) (k : Fin E)

/-- Update `k` starts at the row its first index word names, read signed … -/
private theorem start_row : (pairDims N M E wf).start (ix1 k) idx 0 = (idx (ix2 k 0)).toInt := by
  unfold ScatterDims.start
  rw [dif_pos (show (0 : Fin 2) ∈ (pairDims N M E wf).scatterDimsToOperandDims from by
    show (0 : Fin 2) ∈ [(0 : Fin 2), (1 : Fin 2)]; decide)]
  have hsi : (pairDims N M E wf).siIdx (ix1 k) ⟨List.idxOf (0 : Fin 2) (pairDims N M E wf).scatterDimsToOperandDims,
      List.idxOf_lt_length_iff.2 (by show (0 : Fin 2) ∈ [(0 : Fin 2), (1 : Fin 2)]; decide)⟩ = ix2 k 0 := by
    funext b; refine Fin.ext ?_
    match b with
    | ⟨0, _⟩ => rfl
    | ⟨1, _⟩ => rfl
  rw [hsi]

/-- … and at the column its second index word names. -/
private theorem start_col : (pairDims N M E wf).start (ix1 k) idx 1 = (idx (ix2 k 1)).toInt := by
  unfold ScatterDims.start
  rw [dif_pos (show (1 : Fin 2) ∈ (pairDims N M E wf).scatterDimsToOperandDims from by
    show (1 : Fin 2) ∈ [(0 : Fin 2), (1 : Fin 2)]; decide)]
  have hsi : (pairDims N M E wf).siIdx (ix1 k) ⟨List.idxOf (1 : Fin 2) (pairDims N M E wf).scatterDimsToOperandDims,
      List.idxOf_lt_length_iff.2 (by show (1 : Fin 2) ∈ [(0 : Fin 2), (1 : Fin 2)]; decide)⟩ = ix2 k 1 := by
    funext b; refine Fin.ext ?_
    match b with
    | ⟨0, _⟩ => rfl
    | ⟨1, _⟩ => rfl
  rw [hsi]

/-- Both operand axes are inserted, so the window coordinate is 0 on each. -/
private theorem window_zero (a : Fin 2) : (pairDims N M E wf).window (ix1 k) a = 0 := by
  unfold ScatterDims.window
  rw [dif_neg (show a ∉ (pairDims N M E wf).sKept from by
    show a ∉ (List.finRange 2).filter (fun a => a ∉ [(0 : Fin 2), (1 : Fin 2)])
    revert a; decide)]

/-- Update `k` lands on `(r, p)` exactly when its two index words, read signed, are `r` and `p`. -/
private theorem resultIdx?_eq_some_iff (r : Fin N) (p : Fin M) :
    (pairDims N M E wf).resultIdx? (ix1 k) idx = some (ix2 r p)
      ↔ (idx (ix2 k 0)).toInt = (r.val : Int) ∧ (idx (ix2 k 1)).toInt = (p.val : Int) := by
  unfold ScatterDims.resultIdx?
  have hr := r.isLt
  have hp := p.isLt
  split
  · rename_i h
    rw [Option.some.injEq]
    constructor
    · intro hf
      have h0 := congrArg (fun f : (⟨2, ![N, M]⟩ : Shape).Idx => (f 0).val) hf
      have h1 := congrArg (fun f : (⟨2, ![N, M]⟩ : Shape).Idx => (f 1).val) hf
      simp only [start_row, start_col, window_zero] at h0 h1
      have hh0 := (h 0).1
      have hh1 := (h 1).1
      simp only [start_row, start_col, window_zero] at hh0 hh1
      have e0 : ((idx (ix2 k 0)).toInt + ((0 : Nat) : Int)).toNat = r.val := h0
      have e1 : ((idx (ix2 k 1)).toInt + ((0 : Nat) : Int)).toNat = p.val := h1
      constructor <;> omega
    · rintro ⟨hs, ht⟩
      funext a
      refine Fin.ext ?_
      match a with
      | ⟨0, _⟩ =>
        show ((pairDims N M E wf).start (ix1 k) idx 0 + ((pairDims N M E wf).window (ix1 k) 0 : Nat)).toNat = r.val
        rw [start_row, window_zero, hs]; omega
      | ⟨1, _⟩ =>
        show ((pairDims N M E wf).start (ix1 k) idx 1 + ((pairDims N M E wf).window (ix1 k) 1 : Nat)).toNat = p.val
        rw [start_col, window_zero, ht]; omega
  · rename_i h
    constructor
    · intro hf; exact absurd hf (by simp)
    · rintro ⟨hs, ht⟩
      refine absurd (fun a => ?_) h
      match a with
      | ⟨0, _⟩ =>
        show 0 ≤ (pairDims N M E wf).start (ix1 k) idx 0 + ((pairDims N M E wf).window (ix1 k) 0 : Nat)
          ∧ (pairDims N M E wf).start (ix1 k) idx 0 + ((pairDims N M E wf).window (ix1 k) 0 : Nat) < (N : Int)
        rw [start_row, window_zero, hs]; omega
      | ⟨1, _⟩ =>
        show 0 ≤ (pairDims N M E wf).start (ix1 k) idx 1 + ((pairDims N M E wf).window (ix1 k) 1 : Nat)
          ∧ (pairDims N M E wf).start (ix1 k) idx 1 + ((pairDims N M E wf).window (ix1 k) 1 : Nat) < (M : Int)
        rw [start_col, window_zero, ht]; omega

/-- Entry `(r, p)` of the scatter-add over the extended reals: the operand's entry plus the sum of the updates whose
    two index words are `r` and `p`. -/
private theorem pairScatterAdd_apply {φ : FTy} (x : FVec Ideal ⟨2, ![N, M]⟩ φ) (upd : FVec Ideal ⟨1, ![E]⟩ φ)
    (r : Fin N) (p : Fin M) :
    Host.scatterAdd (F := Ideal) (pairDims N M E wf) x idx upd (ix2 r p)
      = x (ix2 r p) + ∑ k ∈ Finset.univ.filter (fun k : Fin E =>
          (idx (ix2 k 0)).toInt = (r.val : Int) ∧ (idx (ix2 k 1)).toInt = (p.val : Int)), upd (ix1 k) := by
  unfold Host.scatterAdd
  rw [Ideal.hostScatterAdd_def]
  unfold Ideal.hostScatterAdd
  congr 1
  rw [Finset.sum_filter, sum_idx1, Finset.sum_filter]
  refine Finset.sum_congr rfl fun k _ => ?_
  simp only [resultIdx?_eq_some_iff]

end PairScatter

/-! ## The index array the scatter reads

Each column of the index array is taken out as a vector, its negative numbers are shifted up by 8192, and the two
vectors are put back side by side. With every number in `[0, 8192)` nothing is negative, and the result is the index
array itself. -/

/-- Column `off` of the index array, as a vector of its 1048576 entries. -/
private def colVec (idx : IVec S1048576x2 32) (off : Nat) (h : S1048576x2.Slices ![0, off] S1048576x1) : IVec S1048576 32 :=
  shapeCast _ (extractStridedSlice S1048576x1 ![0, off] idx h) shapeCasts_S1048576x1_S1048576

/-- A negative number shifted up by 8192, any other kept. -/
private def wrap (v : IVec S1048576 32) : IVec S1048576 32 :=
  select (cmpi .slt v (broadcastInDim S1048576 ![] bcast_S_S1048576 (constantI S_ 32 0#32)))
    (addi v (broadcastInDim S1048576 ![] bcast_S_S1048576 (constantI S_ 32 8192#32))) v

/-- The two wrapped columns side by side. -/
private def wrapped (idx : IVec S1048576x2 32) : IVec S1048576x2 32 :=
  concatenate S1048576x2 1
    [⟨S1048576x1, broadcastInDim S1048576x1 ![0] bcast_S1048576_S1048576x1_0 (wrap (colVec idx 0 slices_S1048576x2_S1048576x1_0_0))⟩,
     ⟨S1048576x1, broadcastInDim S1048576x1 ![0] bcast_S1048576_S1048576x1_0 (wrap (colVec idx 1 slices_S1048576x2_S1048576x1_0_1))⟩]
    concatenates_S1048576x1_S1048576x1_S1048576x2_d1

/-- A column read at an entry: the index array at that entry and column. -/
private theorem colVec_apply (idx : IVec S1048576x2 32) (off : Nat) (hoff : off < 2) (h : S1048576x2.Slices ![0, off] S1048576x1)
    (k : Fin 1048576) : colVec idx off h (ix1 k) = idx (ix2 k ⟨off, hoff⟩) := by
  unfold colVec
  rw [shapeCast_apply _ shapeCasts_S1048576x1_S1048576 (ix1 k) (ix2 k (0 : Fin 1)) (by
    rw [Shape.rowMajor_val_two, Shape.rowMajor_val_one]
    show k.val * 1 + 0 = k.val
    omega)]
  rw [RowOps.colSlice_apply h idx k (0 : Fin 1) (by show off + 0 < 2; omega)]
  exact congrArg (fun q => idx (ix2 k q)) (Fin.ext (Nat.add_zero _))

/-- A number that is not negative is kept. -/
private theorem wrap_apply_of_nonneg (v : IVec S1048576 32) (k : Fin 1048576) (h0 : 0 ≤ (v (ix1 k)).toInt) :
    wrap v (ix1 k) = v (ix1 k) := by
  show Scalar.select (IntOp.cmpi .slt (v (ix1 k)) 0#32) (IntOp.addi (v (ix1 k)) 8192#32) (v (ix1 k)) = v (ix1 k)
  have hc : IntOp.cmpi .slt (v (ix1 k)) 0#32 = 0#1 := by
    show BitVec.ofBool ((v (ix1 k)).slt 0#32) = 0#1
    rw [BitVec.slt_eq_decide, decide_eq_false (by rw [BitVec.toInt_zero]; omega)]
    rfl
  rw [hc, select_zero]

/-- A vector laid out as a one-column matrix, read at `(k, 0)`. -/
private theorem asColumn_apply (v : IVec S1048576 32) (k : Fin 1048576) :
    broadcastInDim S1048576x1 ![0] bcast_S1048576_S1048576x1_0 v (ix2 k (0 : Fin 1)) = v (ix1 k) :=
  broadcastInDim_apply _ _ v _ (ix1 k) (fun a => match a with
    | ⟨0, _⟩ => by
      show k.val = if (1048576 : Nat) = 1 then 0 else k.val
      rw [if_neg (by decide)])

/-- With every number in range, wrapping changes nothing: the wrapped array is the index array. -/
private theorem wrapped_apply (idx : IVec S1048576x2 32) (hr : Spmm.InRange idx) (k : Fin 1048576) (a : Fin 2) :
    wrapped idx (ix2 k a) = idx (ix2 k a) := by
  unfold wrapped
  match a with
  | ⟨0, _⟩ =>
    refine (concatenate_pair_apply_left (t := S1048576x2) (s₁ := S1048576x1) (s₂ := S1048576x1) _ _ _ _ (ix2 k (0 : Fin 2)) rfl
      (ix2 k (0 : Fin 1)) (fun b => match b with | ⟨0, _⟩ => rfl | ⟨1, _⟩ => rfl)).trans ?_
    rw [asColumn_apply, wrap_apply_of_nonneg _ k (by rw [colVec_apply idx 0 (by decide)]; exact (hr k 0).1),
      colVec_apply idx 0 (by decide)]
  | ⟨1, _⟩ =>
    refine (concatenate_pair_apply_right (t := S1048576x2) (s₁ := S1048576x1) (s₂ := S1048576x1) _ _ _ _ (ix2 k (1 : Fin 2)) rfl rfl
      (ix2 k (0 : Fin 1)) (fun b hb => match b, hb with | ⟨0, _⟩, _ => rfl | ⟨1, _⟩, hb => absurd rfl hb) rfl).trans ?_
    rw [asColumn_apply, wrap_apply_of_nonneg _ k (by rw [colVec_apply idx 1 (by decide)]; exact (hr k 1).1),
      colVec_apply idx 1 (by decide)]

/-! ## The matrix the kernel reads -/

variable (m : (ℓ : Loc nD τ sig) → Buf (Elt Ideal) ℓ)

set_option maxHeartbeats 2000000 in
/-- What the operations before the kernel leave in its second operand: the entries' values scattered into the zero
    matrix at the wrapped (row, column) pairs. -/
private theorem dense_term (c : Dev nD) :
    (V m c main_v18 : S8192x8192.Idx → EReal)
      = Host.scatterAdd (F := Ideal) scatter_S8192x8192_S1048576x2_S1048576_n_01_01_1
          (broadcastInDim S8192x8192 ![] bcast_S_S8192x8192 (constant (F := Ideal) S_ .f32 0x00000000#32))
          (wrapped (m ((c : Thread nD τ).loc main_arg1)))
          (m ((c : Thread nD τ).loc main_arg2)) := by
  dsimp only [Gen.V, Gen.hostOps0]
  after_results
  rfl

/-- The matrix the kernel reads, at `(i, j)`, for row and column numbers in range. -/
theorem dense_apply (c : Dev nD) (hr : Spmm.InRange (m ((c : Thread nD τ).loc main_arg1))) (i j : Fin 8192) :
    (V m c main_v18 : S8192x8192.Idx → EReal) (ix2 i j)
      = Spmm.denseAt (m ((c : Thread nD τ).loc main_arg1)) (m ((c : Thread nD τ).loc main_arg2)) i j := by
  rw [dense_term m c]
  refine (pairScatterAdd_apply scatter_S8192x8192_S1048576x2_S1048576_n_01_01_1_wf
    (wrapped (m ((c : Thread nD τ).loc main_arg1))) _ (m ((c : Thread nD τ).loc main_arg2)) i j).trans ?_
  have hz : broadcastInDim S8192x8192 ![] bcast_S_S8192x8192 (constant (F := Ideal) S_ .f32 0x00000000#32) (ix2 i j) = 0 :=
    Ideal.ofBits_zero_f32
  rw [hz, zero_add]
  unfold Spmm.denseAt Spmm.rowOf Spmm.colOf
  simp only [wrapped_apply _ hr]

end Cert.KernelIdeal.DenseValue

end
-- ==== Proof.KernelValue.lean ====
/-
  What the kernel leaves in its output.  The grid has 8 column tiles of 1024 columns and, inside each, 4 steps
  over tiles of 2048 rows of the dense matrix.  An accumulator is zeroed at a column tile's first step; every step
  adds to it the product of the step's 256 × 2048 block of `inputs` with the step's 2048 × 1024 block of the matrix;
  the last step writes the accumulator to the output's column tile.  So the output at `(b, j)` is the sum over all
  8192 rows `i` of `inputs b i · d i j`, grouped by four.

  The sum is carried as a partial sum over the first `n` rows, `n` a natural number (`part`): a step adds the 2048
  terms of its rows (`step_sum`, `part_succ`), so after step `r` of a column tile the accumulator holds the partial
  sum over `(r + 1) · 2048` rows (`acc_eq`, by induction on the grid point), and after the fourth step that is the
  whole sum (`part_all`).  Addition of extended reals is associative and commutative, so the grouping costs
  nothing and no finiteness is needed here.
-/
import proofs.«424148_j87522843561392_1_alg».proof.Proof.Gen.KernelIdeal.Value
import proofs.«424148_j87522843561392_1_alg».proof.Proof.Spec
import Idealize.ShloMosaic.Lib.Pipeline.Value
import Idealize.ShloMosaic.Lib.Tactic
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

/-! ## What each kind of step leaves behind -/

section Pieces
variable {F : FTy → Type} [FloatOps F]

/-- The offsets of a whole-block access are all zero. -/
theorem hz : (![0, 0] : Fin 2 → Nat) = fun _ => 0 := funext fun a => by fin_cases a <;> rfl

/-- The middle steps leave in the accumulator what one step computes from the two input blocks and the accumulator's
    previous contents. -/
theorem sout_B (c : Dev nD) (i : grid0.Coords) (a2 : Memref sig .tc .vmem S256x2048 .f32) (h2 : a2.IsWhole)
    (a3 : Memref sig .tc .vmem S2048x1024 .f32) (h3 : a3.IsWhole) (a4 : Memref sig .tc .vmem S256x1024 .f32) (h4 : a4.IsWhole)
    (a5 : Memref sig .tc .vmem S256x1024 .f32) (h5 : a5.IsWhole) (hc0 : ¬cond0_0 i) (hc1 : ¬cond0_1 i)
    (x0 : Vec F S256x2048 .f32) (x1 : Vec F S2048x1024 .f32) (acc : Vec F S256x1024 .f32) :
    sout0_B_0 c i a2 h2 a3 h3 a4 h4 a5 h5 hc0 hc1 x0 x1 acc = k0_pay2 x0 x1 acc := by
  unfold sout0_B_0
  rw [View.read_writes_eq_canon _ _ _ (scover0_B_0 c i a2 h2 a3 h3 a4 h4 a5 h5 hc0 hc1 x0 x1 acc)]
  unfold kernelRun0_B
  dsimp only
  sl_unfold_words
  rw [View.canon_unit_zero hz]
  simp only [View.readAt_eq_ld, h2.read_unread, h3.read_unread, h5.read_unread, View.ld_unit_zero (S := S256x2048) hz,
    View.ld_unit_zero (S := S2048x1024) hz, View.ld_unit_zero (S := S256x1024) hz]

/-- So does the last step … -/
theorem sout_C (c : Dev nD) (i : grid0.Coords) (a2 : Memref sig .tc .vmem S256x2048 .f32) (h2 : a2.IsWhole)
    (a3 : Memref sig .tc .vmem S2048x1024 .f32) (h3 : a3.IsWhole) (a4 : Memref sig .tc .vmem S256x1024 .f32) (h4 : a4.IsWhole)
    (a5 : Memref sig .tc .vmem S256x1024 .f32) (h5 : a5.IsWhole) (hc0 : ¬cond0_0 i) (hc1 : cond0_1 i)
    (x0 : Vec F S256x2048 .f32) (x1 : Vec F S2048x1024 .f32) (acc : Vec F S256x1024 .f32) :
    sout0_C_0 c i a2 h2 a3 h3 a4 h4 a5 h5 hc0 hc1 x0 x1 acc = k0_pay2 x0 x1 acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero hz]
  simp only [View.readAt_eq_ld, h2.read_unread, h3.read_unread, h5.read_unread, View.ld_unit_zero (S := S256x2048) hz,
    View.ld_unit_zero (S := S2048x1024) hz, View.ld_unit_zero (S := S256x1024) hz]

/-- … which also copies the accumulator into the output block. -/
theorem out_C (c : Dev nD) (i : grid0.Coords) (a2 : Memref sig .tc .vmem S256x2048 .f32) (h2 : a2.IsWhole)
    (a3 : Memref sig .tc .vmem S2048x1024 .f32) (h3 : a3.IsWhole) (a4 : Memref sig .tc .vmem S256x1024 .f32) (h4 : a4.IsWhole)
    (a5 : Memref sig .tc .vmem S256x1024 .f32) (h5 : a5.IsWhole) (hc0 : ¬cond0_0 i) (hc1 : cond0_1 i)
    (x0 : Vec F S256x2048 .f32) (x1 : Vec F S2048x1024 .f32) (acc : Vec F S256x1024 .f32) :
    out0_C_2 c i a2 h2 a3 h3 a4 h4 a5 h5 hc0 hc1 x0 x1 acc = k0_pay2 x0 x1 acc := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero hz, View.readCov_unit_zero (S := S256x1024) _ hz]
  simp only [View.readAt_eq_ld, h2.read_unread, h3.read_unread, h5.read_unread, View.ld_unit_zero (S := S256x2048) hz,
    View.ld_unit_zero (S := S2048x1024) hz, View.ld_unit_zero (S := S256x1024) hz]

/-- A column tile's first step zeroes the accumulator first: it leaves one step's result over the zero block. -/
theorem sout_A (c : Dev nD) (i : grid0.Coords) (a2 : Memref sig .tc .vmem S256x2048 .f32) (h2 : a2.IsWhole)
    (a3 : Memref sig .tc .vmem S2048x1024 .f32) (h3 : a3.IsWhole) (a4 : Memref sig .tc .vmem S256x1024 .f32) (h4 : a4.IsWhole)
    (a5 : Memref sig .tc .vmem S256x1024 .f32) (h5 : a5.IsWhole) (hc0 : cond0_0 i) (hc1 : ¬cond0_1 i)
    (x0 : Vec F S256x2048 .f32) (x1 : Vec F S2048x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S256x1024) hz, View.readCov_unit_zero (S := S256x1024) _ hz]
  simp only [View.readAt_eq_ld, h2.read_unread, h3.read_unread, View.ld_unit_zero (S := S256x2048) hz,
    View.ld_unit_zero (S := S2048x1024) hz]

end Pieces

/-! ## One step's arithmetic at an index -/

section Arith

/-- The step's matrix product: 256 × 2048 by 2048 × 1024, the second axis of the left against the first of the right. -/
abbrev D := dot_S256x2048_S2048x1024_S256x1024_1_0_0_1_n_n

theorem lhs_row (j : S256x1024.Idx) (k : D.contr.Idx) : (D.lhsIdx j k 0).val = (j 0).val := rfl
theorem lhs_col (j : S256x1024.Idx) (k : D.contr.Idx) : (D.lhsIdx j k 1).val = (k ⟨0, by decide⟩).val :=
  D.lhsIdx_val_of_single rfl j k
theorem rhs_row (j : S256x1024.Idx) (k : D.contr.Idx) : (D.rhsIdx j k 0).val = (k ⟨0, by decide⟩).val :=
  D.rhsIdx_val_of_single rfl j k
theorem rhs_col (j : S256x1024.Idx) (k : D.contr.Idx) : (D.rhsIdx j k 1).val = (j 1).val := rfl

/-- Entry `(b, p)` of the step's product into a zero block: the sum over the 2048 shared positions. -/
theorem mm_apply (a : FVec Ideal S256x2048 .bf16) (w : FVec Ideal S2048x1024 .bf16) (b : Fin 256) (p : Fin 1024) :
    matmul D none a w (constant S256x1024 .f32 0x00000000#32) (ix2 b p) = ∑ k : Fin 2048, a (ix2 b k) * w (ix2 k p) := by
  refine (Ideal.matmul_constant_zero_apply D none a w (ix2 b p)).trans ?_
  rw [← Equiv.sum_comp (contrEquiv1 D 2048 rfl rfl).symm]
  refine Finset.sum_congr rfl fun k _ => ?_
  have e1 : D.lhsIdx (ix2 b p) ((contrEquiv1 D 2048 rfl rfl).symm k) = ix2 b k := funext fun x => Fin.ext (by
    match x with
    | ⟨0, _⟩ => exact lhs_row _ _
    | ⟨1, _⟩ => exact (lhs_col _ _).trans (contrEquiv1_symm_val D 2048 rfl rfl k))
  have e2 : D.rhsIdx (ix2 b p) ((contrEquiv1 D 2048 rfl rfl).symm k) = ix2 k p := funext fun x => Fin.ext (by
    match x with
    | ⟨0, _⟩ => exact (rhs_row _ _).trans (contrEquiv1_symm_val D 2048 rfl rfl k)
    | ⟨1, _⟩ => exact rhs_col _ _)
  rw [e1, e2]

/-- One step at `(b, p)`: the accumulator's entry plus the sum over the step's 2048 rows of the products. -/
theorem pay2_apply (x0 : Vec Ideal S256x2048 .f32) (x1 : Vec Ideal S2048x1024 .f32) (acc : Vec Ideal S256x1024 .f32)
    (b : Fin 256) (p : Fin 1024) :
    k0_pay2 (F := Ideal) x0 x1 acc (ix2 b p) = acc (ix2 b p) + ∑ k : Fin 2048, x0 (ix2 b k) * x1 (ix2 k p) := by
  unfold k0_pay2
  rw [shapeCast_self]
  refine (addf_apply _ _ _).trans ?_
  rw [mm_apply]
  simp only [truncf_apply, shapeCast_self]

end Arith

/-! ## The blocks a step reads -/

section Value

variable (m : (ℓ : Loc nD τ sig) → Buf (Elt Ideal) ℓ)
/-- `inputs` as the kernel finds it. -/
abbrev xarr (c : Dev nD) : S256x8192.Idx → EReal := V m c main_arg0
/-- The dense matrix as the kernel finds it. -/
abbrev darr (c : Dev nD) : S8192x8192.Idx → EReal := V m c main_v18
/-- Grid point `t` is step `t % 4` of column tile `t / 4`: the block of `inputs` is column block `t % 4`, the block of
    the matrix is row block `t % 4` of column block `t / 4`, the output block is column block `t / 4`. -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

/-- Through the step's window, an array shaped like `inputs` is read at column `(t % 4) · 2048 + k`. -/
theorem xblk_read (A : S256x8192.Idx → EReal) (t : Fin cfg0.N) (b : Fin 256) (k : Fin 2048)
    (h : t.val % 4 * 2048 + k.val < 8192) :
    (((cfg0.win 0).blk t).view.read (Elt Ideal) A : S256x2048.Idx → EReal) (ix2 b k)
      = A (ix2 b ⟨t.val % 4 * 2048 + k.val, h⟩) := by
  obtain ⟨e0, e1, -⟩ := idx_facts t
  show A (((cfg0.win 0).blk t).view.emb (ix2 b k)) = _
  refine congrArg A (funext fun a => Fin.ext ?_)
  match a with
  | ⟨0, _⟩ => show win0_0.index t (0 : Fin 2) * 256 + 1 * b.val = b.val; omega
  | ⟨1, _⟩ => show win0_0.index t (1 : Fin 2) * 2048 + 1 * k.val = t.val % 4 * 2048 + k.val; omega

/-- Through the step's window, an array shaped like the matrix is read at row `(t % 4) · 2048 + k`, column
    `(t / 4) · 1024 + p`. -/
theorem dblk_read (A : S8192x8192.Idx → EReal) (t : Fin cfg0.N) (k : Fin 2048) (p : Fin 1024)
    (h : t.val % 4 * 2048 + k.val < 8192) (h' : t.val / 4 * 1024 + p.val < 8192) :
    (((cfg0.win 1).blk t).view.read (Elt Ideal) A : S2048x1024.Idx → EReal) (ix2 k p)
      = A (ix2 ⟨t.val % 4 * 2048 + k.val, h⟩ ⟨t.val / 4 * 1024 + p.val, h'⟩) := by
  obtain ⟨-, -, e2, e3, -⟩ := idx_facts t
  show A (((cfg0.win 1).blk t).view.emb (ix2 k p)) = _
  refine congrArg A (funext fun a => Fin.ext ?_)
  match a with
  | ⟨0, _⟩ => show win0_1.index t (0 : Fin 2) * 2048 + 1 * k.val = t.val % 4 * 2048 + k.val; omega
  | ⟨1, _⟩ => show win0_1.index t (1 : Fin 2) * 1024 + 1 * p.val = t.val / 4 * 1024 + p.val; omega

/-- The step's block of `inputs`, and of the matrix, as arrays of extended reals. -/
abbrev xblk (c : Dev nD) (t : Fin cfg0.N) : S256x2048.Idx → EReal := iblk m c 0 t
abbrev dblk (c : Dev nD) (t : Fin cfg0.N) : S2048x1024.Idx → EReal := iblk m c 1 t

/-- The step's block of `inputs`. -/
theorem xblk_apply (c : Dev nD) (t : Fin cfg0.N) (b : Fin 256) (k : Fin 2048) (h : t.val % 4 * 2048 + k.val < 8192) :
    xblk m c t (ix2 b k) = xarr m c (ix2 b ⟨t.val % 4 * 2048 + k.val, h⟩) :=
  xblk_read (xarr m c) t b k h

/-- The step's block of the matrix. -/
theorem dblk_apply (c : Dev nD) (t : Fin cfg0.N) (k : Fin 2048) (p : Fin 1024) (h : t.val % 4 * 2048 + k.val < 8192)
    (h' : t.val / 4 * 1024 + p.val < 8192) :
    dblk m c t (ix2 k p)
      = darr m c (ix2 ⟨t.val % 4 * 2048 + k.val, h⟩ ⟨t.val / 4 * 1024 + p.val, h'⟩) :=
  dblk_read (darr m c) t k p h h'

/-! ## The accumulation over a column tile's four steps -/

/-- `inputs b i · d i j` for a row number `i` and a column number `j` given as natural numbers; zero out of range. -/
def term (c : Dev nD) (b : Fin 256) (j i : ℕ) : EReal :=
  if h : i < 8192 ∧ j < 8192 then xarr m c (ix2 b ⟨i, h.1⟩) * darr m c (ix2 ⟨i, h.1⟩ ⟨j, h.2⟩) else 0

/-- The product restricted to the first `n` rows of the matrix. -/
def part (c : Dev nD) (b : Fin 256) (j n : ℕ) : EReal := ∑ i ∈ Finset.range n, term m c b j i

/-- Over all 8192 rows it is the product. -/
theorem part_all (c : Dev nD) (b : Fin 256) (j : Fin 8192) :
    part m c b j.val 8192 = Spmm.prodAt (xarr m c) (darr m c) b j := by
  unfold part Spmm.prodAt
  rw [Finset.sum_range]
  refine Finset.sum_congr rfl fun i _ => ?_
  unfold term
  rw [dif_pos ⟨i.isLt, j.isLt⟩]

/-- 2048 more rows. -/
theorem part_succ (c : Dev nD) (b : Fin 256) (j r : ℕ) :
    part m c b j ((r + 1) * 2048) = part m c b j (r * 2048) + ∑ k ∈ Finset.range 2048, term m c b j (r * 2048 + k) := by
  unfold part
  rw [show (r + 1) * 2048 = r * 2048 + 2048 by ring, Finset.sum_range_add]

/-- What a step adds at `(b, p)`: the terms of its 2048 rows, in the column the point's column tile puts `p` at. -/
theorem step_sum (c : Dev nD) (t : Fin cfg0.N) (b : Fin 256) (p : Fin 1024) :
    ∑ k : Fin 2048, xblk m c t (ix2 b k) * dblk m c t (ix2 k p)
      = ∑ k ∈ Finset.range 2048, term m c b (t.val / 4 * 1024 + p.val) (t.val % 4 * 2048 + k) := by
  have hN : t.val < 32 := lt_of_lt_of_eq t.isLt (show cfg0.N = 32 from N_0)
  have hj : t.val / 4 * 1024 + p.val < 8192 := by have := p.isLt; omega
  rw [Finset.sum_range]
  refine Finset.sum_congr rfl fun k _ => ?_
  have hk : t.val % 4 * 2048 + k.val < 8192 := by have := k.isLt; omega
  rw [xblk_apply m c t b k hk, dblk_apply m c t k p hk hj]
  unfold term
  rw [dif_pos ⟨hk, hj⟩]

/-- The zero block. -/
theorem pay1_apply (b : Fin 256) (p : Fin 1024) : k0_pay1 (F := Ideal) (ix2 b p) = 0 := by
  unfold k0_pay1
  rw [shapeCast_self]
  exact Ideal.ofBits_zero_f32

/-- One step, at `(b, p)`: if the accumulator holds the product over the rows before the step's, it leaves the product
    over the rows up to and including the step's. -/
theorem step_eq (c : Dev nD) (t : Fin cfg0.N) (acc : Vec Ideal S256x1024 .f32) (b : Fin 256) (p : Fin 1024)
    (hacc : acc (ix2 b p) = part m c b (t.val / 4 * 1024 + p.val) (t.val % 4 * 2048)) :
    k0_pay2 (F := Ideal) (iblk m c 0 t) (iblk m c 1 t) acc (ix2 b p)
      = part m c b (t.val / 4 * 1024 + p.val) ((t.val % 4 + 1) * 2048) := by
  refine (pay2_apply (xblk m c t) (dblk m c t) acc b p).trans ?_
  rw [hacc, step_sum m c t b p, part_succ]

/-- A column tile's first step: the accumulator was zeroed, and no row came before. -/
theorem acc_first (c : Dev nD) (t : Fin cfg0.N) (h0 : t.val % 4 = 0) (b : Fin 256) (p : Fin 1024) :
    ((outsAt0 m c t.val t.isLt).2 : S256x1024.Idx → EReal) (ix2 b p)
      = part m c b (t.val / 4 * 1024 + p.val) ((t.val % 4 + 1) * 2048) := by
  have h1 : ¬t.val % 4 = 3 := by omega
  rw [outsAt0_A m c t h0 h1]
  dsimp only
  refine (congrFun (sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 b p)).trans ?_
  refine step_eq m c t (k0_pay1 (F := Ideal)) b p ?_
  rw [pay1_apply, h0, Nat.zero_mul]
  unfold part
  rw [Finset.range_zero, Finset.sum_empty]

/-- THE ACCUMULATOR after point `n`, at `(b, p)`: the product over the rows of the steps done so far in the point's
    column tile, in the column the tile puts `p` at. -/
theorem acc_eq (c : Dev nD) : ∀ (n : ℕ) (hn : n < cfg0.N) (b : Fin 256) (p : Fin 1024),
    ((outsAt0 m c n hn).2 : S256x1024.Idx → EReal) (ix2 b p) = part m c b (n / 4 * 1024 + p.val) ((n % 4 + 1) * 2048) := by
  intro n
  induction n with
  | zero => intro hn b p; exact acc_first m c ⟨0, hn⟩ rfl b p
  | succ n ih =>
    intro hn b p
    by_cases h0 : (n + 1) % 4 = 0
    · exact acc_first m c ⟨n + 1, hn⟩ h0 b p
    · have hprev := ih (Nat.lt_of_succ_lt hn) b p
      have hq : (n + 1) / 4 = n / 4 := by omega
      have hr : (n + 1) % 4 = n % 4 + 1 := by omega
      by_cases h1 : (n + 1) % 4 = 3
      · rw [outsAt0_C m c ⟨n + 1, hn⟩ h0 h1]
        dsimp only
        refine (congrFun (sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2) (ix2 b p)).trans ?_
        refine (step_eq m c ⟨n + 1, hn⟩ (outsAt0 m c n (Nat.lt_of_succ_lt hn)).2 b p ?_)
        show _ = part m c b ((n + 1) / 4 * 1024 + p.val) ((n + 1) % 4 * 2048)
        rw [hprev, hq, hr]
      · rw [outsAt0_B m c ⟨n + 1, hn⟩ h0 h1]
        dsimp only
        refine (congrFun (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n (Nat.lt_of_succ_lt hn)).2) (ix2 b p)).trans ?_
        refine (step_eq m c ⟨n + 1, hn⟩ (outsAt0 m c n (Nat.lt_of_succ_lt hn)).2 b p ?_)
        show _ = part m c b ((n + 1) / 4 * 1024 + p.val) ((n + 1) % 4 * 2048)
        rw [hprev, hq, hr]

/-! ## The output array -/

/-- What the output array ends holding at `y`: the product over all 8192 rows. -/
abbrev G (c : Dev nD) : S256x8192.Idx → EReal := fun y => part m c ⟨(y 0).val, idx2_lt0 y⟩ (y 1).val 8192

/-- Through the output's window, an array shaped like the output is read at column `(t / 4) · 1024 + p`. -/
theorem oblk_read (A : S256x8192.Idx → EReal) (t : Fin cfg0.N) (b : Fin 256) (p : Fin 1024)
    (h' : t.val / 4 * 1024 + p.val < 8192) :
    (((cfg0.win 2).blk t).view.read (Elt Ideal) A : S256x1024.Idx → EReal) (ix2 b p)
      = A (ix2 b ⟨t.val / 4 * 1024 + p.val, h'⟩) := by
  obtain ⟨-, -, -, -, e4, e5⟩ := idx_facts t
  show A (((cfg0.win 2).blk t).view.emb (ix2 b p)) = _
  refine congrArg A (funext fun a => Fin.ext ?_)
  match a with
  | ⟨0, _⟩ => show win0_2.index t (0 : Fin 2) * 256 + 1 * b.val = b.val; omega
  | ⟨1, _⟩ => show win0_2.index t (1 : Fin 2) * 1024 + 1 * p.val = t.val / 4 * 1024 + p.val; omega

/-- A column tile's last step copies the accumulator, by then the product over all rows, into the output block. -/
theorem out_last (c : Dev nD) (t : Fin cfg0.N) (h0 : ¬t.val % 4 = 0) (h1 : t.val % 4 = 3) (b : Fin 256) (p : Fin 1024) :
    (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2 : S256x1024.Idx → EReal) (ix2 b p)
      = part m c b (t.val / 4 * 1024 + p.val) 8192 := by
  refine (congrFun (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 b p)).trans ?_
  refine (step_eq m c t (outsAt0 m c (t.val - 1) (Nat.lt_of_le_of_lt (Nat.sub_le _ _) t.isLt)).2 b p ?_).trans ?_
  · rw [acc_eq m c (t.val - 1) (Nat.lt_of_le_of_lt (Nat.sub_le _ _) t.isLt) b p,
      show (t.val - 1) / 4 = t.val / 4 by omega, show (t.val - 1) % 4 + 1 = t.val % 4 by omega]
  · rw [h1]

/-- WHAT A FLUSHING POINT WRITES BACK is its block of the product. -/
theorem flushed_eq (c : Dev nD) (t : Fin cfg0.N) (hf : (cfg0.win 2).flush t = true) :
    (dats m 0 c).flushed 2 t = ((cfg0.win 2).blk t).view.read (Elt Ideal) (G m c) := by
  have h1 : t.val % 4 = 3 := (flush0_2 t).mp hf
  have h0 : ¬t.val % 4 = 0 := by omega
  have hN : t.val < 32 := lt_of_lt_of_eq t.isLt (show cfg0.N = 32 from N_0)
  rw [Value.flushed2_C m c t h0 h1]
  funext y
  obtain ⟨b, p, rfl⟩ : ∃ (b : Fin 256) (p : Fin 1024), y = ix2 b p := ⟨y 0, y 1, eq_ix2 y⟩
  have hj : t.val / 4 * 1024 + p.val < 8192 := by have := p.isLt; omega
  refine Eq.trans ?_ (oblk_read (G m c) t b p hj).symm
  exact out_last m c t h0 h1 b p

/-- An index of the output is in point `t`'s block iff each coordinate is in the block's range on its axis. -/
theorem mem_oblk (t : Fin cfg0.N) (i : S256x8192.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v19).slice (win0_2.rect t)).set ↔ _
  rw [View.set_slice_whole, Rect.mem_set_unit]
  exact Iff.rfl

/-- Every index of the output is in the block of its column tile's last step, which is written back. -/
theorem cover (i : S256x8192.Idx) :
    ∃ t : Fin cfg0.N, (cfg0.win 2).flush t = true ∧ i ∈ ((cfg0.win 2).blk t).view.set := by
  have hN : cfg0.N = 32 := N_0
  have hi0 : (i 0).val < 256 := (i 0).isLt
  have hi1 : (i 1).val < 8192 := (i 1).isLt
  have ht : (i 1).val / 1024 * 4 + 3 < cfg0.N := by rw [hN]; omega
  refine ⟨⟨(i 1).val / 1024 * 4 + 3, ht⟩, (flush0_2 _).mpr (by show ((i 1).val / 1024 * 4 + 3) % 4 = 3; omega), ?_⟩
  rw [mem_oblk]
  obtain ⟨-, -, -, -, e4, e5⟩ := idx_facts ⟨(i 1).val / 1024 * 4 + 3, ht⟩
  have e5' : win0_2.index ⟨(i 1).val / 1024 * 4 + 3, ht⟩ (1 : Fin 2) = (i 1).val / 1024 := by rw [e5]; show ((i 1).val / 1024 * 4 + 3) / 4 = _; omega
  intro a
  match a with
  | ⟨0, _⟩ =>
    show win0_2.index ⟨(i 1).val / 1024 * 4 + 3, ht⟩ (0 : Fin 2) * 256 ≤ (i 0).val
      ∧ (i 0).val < win0_2.index ⟨(i 1).val / 1024 * 4 + 3, ht⟩ (0 : Fin 2) * 256 + 256
    rw [e4]; omega
  | ⟨1, _⟩ =>
    show win0_2.index ⟨(i 1).val / 1024 * 4 + 3, ht⟩ (1 : Fin 2) * 1024 ≤ (i 1).val
      ∧ (i 1).val < win0_2.index ⟨(i 1).val / 1024 * 4 + 3, ht⟩ (1 : Fin 2) * 1024 + 1024
    rw [e5']; omega

/-- So the output array ends holding the product. -/
theorem final (c : Dev nD) : (dats m 0 c).arrAt 2 cfg0.N = G m c :=
  (dats m 0 c).arrAt_eq_of_cover 2 (G m c) (flushed_eq m c) cover

/-- The output array after the run, at `(b, j)`: `inputs` times the matrix the kernel was given. -/
theorem final_apply (c : Dev nD) (b : Fin 256) (j : Fin 8192) :
    ((dats m 0 c).arrAt 2 cfg0.N : S256x8192.Idx → EReal) (ix2 b j)
      = Spmm.prodAt (m ((c : Thread nD τ).loc main_arg0)) (V m c main_v18) b j := by
  refine (congrFun (final m c) (ix2 b j)).trans ?_
  refine (part_all m c b j).trans ?_
  show Spmm.prodAt (V m c main_arg0) (V m c main_v18) b j = _
  rw [V_main_arg0 m c]

end Value

end Cert.KernelIdeal.KValue
end
-- ==== Proof.lean ====
/-
  The kernel multiplies `inputs` (256 × 8192) by an 8192 × 8192 matrix given as 1048576 coordinate entries
  `(row, column, value)`, entries at one position adding up.  It first adds the entries into a dense zero matrix and
  then runs a tiled matrix product; the reference gathers, for each entry, the column of `inputs` its row number
  names, scales it by the entry's value and adds it into the output column its column number names.

  The two treat a row or column number outside `[0, 8192)` differently (the scatter drops such an entry, the gather
  clamps its row, and only the kernel shifts a negative column number), so the claim is stated for numbers in
  range.  There both results are, at `(b, j)`, the sum over the entries `k` of column `j` of
  `inputs b (row k) · w k`: on the kernel's side after moving each factor `inputs b i` inside the sum of the values
  it multiplies, which needs `inputs` and `w` to hold real numbers.

  Spec: the two sums and the law between them.  PreFacts: what the precondition gives.  Dense: the matrix the
  kernel is handed.  KernelValue: the tiled product.  RefValue: the reference at an index.
-/
import proofs.«424148_j87522843561392_1_alg».proof.Defs
import proofs.«424148_j87522843561392_1_alg».proof.Proof.Gen.Kernel
import proofs.«424148_j87522843561392_1_alg».proof.Proof.Gen.Kernel.Skeleton
import proofs.«424148_j87522843561392_1_alg».proof.Proof.Gen.Kernel.Launch
import proofs.«424148_j87522843561392_1_alg».proof.Proof.Gen.Kernel.Points
import proofs.«424148_j87522843561392_1_alg».proof.Proof.Gen.Kernel.Frame
import proofs.«424148_j87522843561392_1_alg».proof.Proof.Gen.KernelIdeal
import proofs.«424148_j87522843561392_1_alg».proof.Proof.Gen.KernelIdeal.Skeleton
import proofs.«424148_j87522843561392_1_alg».proof.Proof.Gen.KernelIdeal.Launch
import proofs.«424148_j87522843561392_1_alg».proof.Proof.Gen.KernelIdeal.Points
import proofs.«424148_j87522843561392_1_alg».proof.Proof.Gen.KernelIdeal.Frame
import proofs.«424148_j87522843561392_1_alg».proof.Proof.Gen.ReferenceIdeal
import proofs.«424148_j87522843561392_1_alg».proof.Proof.Gen.Pre_finite_inputs
import proofs.«424148_j87522843561392_1_alg».proof.Proof.Gen.KernelIdeal.Value
import proofs.«424148_j87522843561392_1_alg».proof.Proof.Gen.ReferenceIdeal.Run
import proofs.«424148_j87522843561392_1_alg».proof.Proof.Gen.ReferenceIdeal.Read
import proofs.«424148_j87522843561392_1_alg».proof.Proof.Spec
import proofs.«424148_j87522843561392_1_alg».proof.Proof.PreFacts
import proofs.«424148_j87522843561392_1_alg».proof.Proof.RefValue
import proofs.«424148_j87522843561392_1_alg».proof.Proof.Dense
import proofs.«424148_j87522843561392_1_alg».proof.Proof.KernelValue
import Idealize.ShloMosaic.Adequacy
import Idealize.ShloMosaic.Init

noncomputable section

namespace Cert.Proof

open Idealize.ShloMosaic Idealize.SL.Sem Idealize.ShloMosaic.TcCoe Idealize.ShloMosaic.ValueIdx

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both programs end with `inputs · A` at every position: the kernel as a tiled product with the dense `A`, the
    reference as the entry-by-entry sum; the law of Spec joins them under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Gen.dats m 0 c).arrAt 2 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2]
  obtain ⟨hx, hw, hr⟩ := Cert.PreFacts.of_pre _ _ _ (hpre c)
  funext y
  obtain ⟨b, j, rfl⟩ : ∃ (b : Fin 256) (j : Fin 8192), y = ix2 b j := ⟨y 0, y 1, eq_ix2 y⟩
  rw [Cert.ReferenceIdeal.RefValue.ref_apply _ _ _ hr b j]
  refine Eq.trans ?_ (Cert.KernelIdeal.KValue.final_apply m c b j).symm
  exact (Spmm.law _ _ _ hx hw hr _ (Cert.KernelIdeal.DenseValue.dense_apply m c hr) b j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
